-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S4000x64 : Shape := ⟨2, ![4000, 64]⟩
abbrev S4000x128 : Shape := ⟨2, ![4000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 42
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128, .f32⟩
  | .local _ .vmem, ⟨16, _⟩ => ⟨S128x64, .f32⟩
  | .local _ .vmem, ⟨17, _⟩ => ⟨S64, .f32⟩
  | .local _ .vmem, ⟨18, _⟩ => ⟨S4000x64, .f32⟩
  | .local _ .vmem, ⟨19, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x64, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KHost.lean ====
/-
  The host side of the kernel's program: what the arrays the two kernels are launched on hold.

  Before each kernel the host forms the neighbour sum of the features the convolution is given: the edge list's first
  row (a negative entry moved up by the node count) says which feature row each edge carries, its second row which
  node the edge adds that row to, starting from zeros. The sums are kept as ONE function of the edge list and the
  features (`agg64`, `agg128`), never opened: the reference forms them with the same operations. The first kernel
  is launched on `agg64 e x`, the features `x` and its weights; the second on `agg128 e h`, `h` and its weights,
  where `h` is the array the first kernel left.
-/
import proofs.«129996_j88424786690458_1_alg».proof.Proof.Gen.KernelIdeal.Frame
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The edge list's first row, as a flat array. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The row each edge carries: the first row's entry, a negative one moved up by the node count, as a column of start indices. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32))) (srcRow (F := F) e))

/-- The edge list's second row, as a flat array. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The node each edge adds to: the edge list's second row, as a column of scatter indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The neighbour sum of 64-column features. -/
def agg64 (e : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstIdx (F := F) e)
    (Host.gather gather_S100000x64_S1600000x1_S1600000x64_1_0_n_n_0_1_164 h (srcIdx (F := F) e))

/-- The neighbour sum of 128-column features. -/
def agg128 (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIdx (F := F) e)
    (Host.gather gather_S100000x128_S1600000x1_S1600000x128_1_0_n_n_0_1_1128 h (srcIdx (F := F) e))

variable (m : (ℓ : Loc nD τ sig) → Buf (Elt F) ℓ) (ρ : Dev nD → PrngReg)

/-! ## The first kernel's arrays -/

/-- Its first operand is the neighbour sum of the features. -/
theorem V1_v13 (c : Dev nD) :
    V1 m ρ c main_v13 = agg64 (F := F) (m ((c : Thread nD τ).loc main_arg1)) (m ((c : Thread nD τ).loc main_arg0)) := by
  show StableHlo.after hostOps0 (W0 m ρ c) (Proc.devRef .tc main_v13) = _
  after_results
  rfl

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results

/-- The two rows of the edge list, as the host operations before the first kernel leave them. -/
theorem W1_v1 (c : Dev nD) : W1 m ρ c (Proc.devRef .tc main_v1) = srcRow (F := F) (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstRow (F := F) (m ((c : Thread nD τ).loc main_arg1)) := by
  show StableHlo.after hostOps0 (W0 m ρ c) (Proc.devRef .tc main_v3) = _
  after_results
  rfl

/-! ## The second kernel's arrays -/

/-- Its second operand is the array the first kernel left, untouched by the host operations in between. -/
theorem V3_v14 (c : Dev nD) : V3 m ρ c main_v14 = W2 m ρ c (Proc.devRef .tc main_v14) := by
  show StableHlo.after hostOps1 (W2 m ρ c) (Proc.devRef .tc main_v14) = _
  after_results

/-- Its weights and biases are the arguments, which nothing before it writes. -/
theorem V3_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results
theorem V3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem V3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

/-- Its first operand is the neighbour sum of that array. -/
theorem V3_v24 (c : Dev nD) :
    V3 m ρ c main_v24 = agg128 (F := F) (m ((c : Thread nD τ).loc main_arg1)) (W2 m ρ c (Proc.devRef .tc main_v14)) := by
  show StableHlo.after hostOps1 (W2 m ρ c) (Proc.devRef .tc main_v24) = _
  after_results
  rw [W2_of_ne m ρ c main_v1 (by decide), W2_of_ne m ρ c main_v3 (by decide), W1_v1, W1_v3]
  rfl

end Cert.KernelIdeal.HostSide

end
-- ==== Proof.Spec.lean ====
/-
  A graph-isomorphism-network convolution, as mathematics over the extended reals.

  One convolution takes node features `H : [n, k]` and an aggregate `A : [n, k]` (the sum of the neighbours'
  features, whatever way it was gathered) and returns, row by row,
      out[r, j] = post ( Σ_s max( Σ_l (A[r,l] + H[r,l]) · Wa[l,s] + ba[s] , 0 ) · Wb[s,j] + bb[j] ),
  a two-layer perceptron of the row `A[r,·] + H[r,·]` with a rectifier between the layers; `post` is the
  rectifier again for the first convolution of the network and the identity for the last. The value of row `r`
  depends on row `r` of `A` and `H` only: that is what lets a computation tiled over row blocks and one over
  the whole array be compared row by row. The network is two such convolutions, the second fed the first's
  result, each with its own aggregation `agg` of the features it is given.
-/
import Idealize.ShloMosaic.PureOps.Ideal
import Idealize.ShloMosaic.Lib.ValueIdx

noncomputable section

open scoped BigOperators
open Idealize.ShloMosaic Idealize.ShloMosaic.ValueIdx

namespace Cert.Gin

/-- An `[n, k]` array of extended reals, indexed by its two coordinates. -/
abbrev Mat (n k : Nat) : Type := (⟨2, ![n, k]⟩ : Shape).Idx → EReal
/-- A length-`k` array of extended reals. -/
abbrev Row (k : Nat) : Type := (⟨1, ![k]⟩ : Shape).Idx → EReal

/-- The rectifier on the extended reals. -/
def relu (x : EReal) : EReal := max x 0

/-- One affine layer at one output coordinate: `Σ_l z[l] · W[l, s] + b[s]`. -/
def affine {k q : Nat} (z : Fin k → EReal) (W : Mat k q) (b : Row q) (s : Fin q) : EReal :=
  (∑ l : Fin k, z l * W (ix2 l s)) + b (ix1 s)

/-- The two-layer perceptron of the row `a + h`, at output coordinate `j`. -/
def mlpRow {k q p : Nat} (a h : Fin k → EReal) (Wa : Mat k q) (ba : Row q) (Wb : Mat q p) (bb : Row p) (j : Fin p) : EReal :=
  affine (fun s => relu (affine (fun l => a l + h l) Wa ba s)) Wb bb j

/-- Row `r` of an `[n, k]` array. -/
def rowOf {n k : Nat} (X : Mat n k) (r : Fin n) : Fin k → EReal := fun l => X (ix2 r l)

/-- The convolution's dense part at row `r`, column `j`. -/
def convAt {n k q p : Nat} (post : EReal → EReal) (A H : Mat n k) (Wa : Mat k q) (ba : Row q) (Wb : Mat q p) (bb : Row p)
    (r : Fin n) (j : Fin p) : EReal :=
  post (mlpRow (rowOf A r) (rowOf H r) Wa ba Wb bb j)

/-- The convolution's dense part as an `[n, p]` array. -/
def conv {n k q p : Nat} (post : EReal → EReal) (A H : Mat n k) (Wa : Mat k q) (ba : Row q) (Wb : Mat q p) (bb : Row p) : Mat n p :=
  fun i => convAt post A H Wa ba Wb bb (i 0) (i 1)

theorem conv_apply {n k q p : Nat} (post : EReal → EReal) (A H : Mat n k) (Wa : Mat k q) (ba : Row q) (Wb : Mat q p) (bb : Row p)
    (r : Fin n) (j : Fin p) : conv post A H Wa ba Wb bb (ix2 r j) = convAt post A H Wa ba Wb bb r j := rfl

/-- The two-convolution network: `agg1`, `agg2` are the neighbour sums of the features each convolution is given. -/
def net {n k q p : Nat} (agg1 : Mat n k → Mat n k) (agg2 : Mat n q → Mat n q) (x : Mat n k)
    (W1a : Mat k q) (b1a : Row q) (W1b : Mat q q) (b1b : Row q) (W2a : Mat q q) (b2a : Row q) (W2b : Mat q p) (b2b : Row p) : Mat n p :=
  conv id (agg2 (conv relu (agg1 x) x W1a b1a W1b b1b)) (conv relu (agg1 x) x W1a b1a W1b b1b) W2a b2a W2b b2b

end Cert.Gin

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.KBody.lean ====
/-
  What one grid point of each of the two kernels computes, entry by entry, on the extended reals.

  A point of the first kernel holds a block of 4000 rows of the aggregate `a` and of the features `h` and the whole
  weights; it stores, at row `r` and column `j` of its output block,
      max( Σ_s max( Σ_l (a[r,l] + h[r,l]) · Wa[l,s] + ba[s], 0 ) · Wb[s,j] + bb[j], 0 ):
  the roundings to a shorter float format on the way into the matrix unit are the identity on the extended reals,
  each matrix product into a zero block is the plain sum over the contracted coordinate, and a bias of shape [128]
  viewed as [1,128] and repeated down the rows reads its one row. That is the convolution's row function of
  `Cert.Gin` with the rectifier after it; the second kernel's point stores the same without the final rectifier.
-/
import proofs.«129996_j88424786690458_1_alg».proof.Proof.Gen.KernelIdeal.Skeleton
import proofs.«129996_j88424786690458_1_alg».proof.Proof.Spec
import proofs.«129996_j88424786690458_1_alg».proof.Proof.LibMatmulPlain
import Idealize.ShloMosaic.Lib.ValueLayout
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- A `[b]` vector viewed as `[1, b]` and repeated down `a` rows reads, at `(p, c)`, the vector at `c`. -/
theorem bias_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- The three products' dimension numbers are the plain `[M, K]` by `[K, N]` ones. -/
theorem dot0a : dot_S4000x64_S64x128_S4000x128_1_0_0_1_n_n = DotDims.plain 4000 64 128 := rfl
theorem dot0b : dot_S4000x128_S128x128_S4000x128_1_0_0_1_n_n = DotDims.plain 4000 128 128 := rfl
theorem dot1b : dot_S4000x128_S128x64_S4000x64_1_0_0_1_n_n = DotDims.plain 4000 128 64 := rfl

/-- The first kernel's stored value at row `r`, column `j` of the block. -/
theorem pay0_apply (x0 x1 : Vec Ideal S4000x64 .f32) (x2 : Vec Ideal S64x128 .f32) (x3 : Vec Ideal S128 .f32)
    (x4 : Vec Ideal S128x128 .f32) (x5 : Vec Ideal S128 .f32) (r : Fin 4000) (j : Fin 128) :
    k0_pay1 (F := Ideal) x0 x1 x2 x3 x4 x5 (ix2 r j)
      = Cert.Gin.relu (Cert.Gin.mlpRow (Cert.Gin.rowOf x0 r) (Cert.Gin.rowOf x1 r) x2 x3 x4 x5 j) := by
  unfold k0_pay1
  simp only [dot0a, dot0b, matmul, maximumf_apply, addf_apply, broadcast_apply, truncf_apply, shapeCast_self,
    Cert.MatmulPlain.matmul_zero_apply, bias_apply]
  rw [show FloatOps.ofBits (F := Ideal) FTy.f32 0x00000000#32 = (0 : EReal) from Ideal.ofBits_zero_f32]
  rfl

/-- The second kernel's stored value at row `r`, column `j` of the block: the same, with no final rectifier. -/
theorem pay1_apply (x0 x1 : Vec Ideal S4000x128 .f32) (x2 : Vec Ideal S128x128 .f32) (x3 : Vec Ideal S128 .f32)
    (x4 : Vec Ideal S128x64 .f32) (x5 : Vec Ideal S64 .f32) (r : Fin 4000) (j : Fin 64) :
    k1_pay1 (F := Ideal) x0 x1 x2 x3 x4 x5 (ix2 r j)
      = Cert.Gin.mlpRow (Cert.Gin.rowOf x0 r) (Cert.Gin.rowOf x1 r) x2 x3 x4 x5 j := by
  unfold k1_pay1
  simp only [dot0b, dot1b, matmul, maximumf_apply, addf_apply, broadcast_apply, truncf_apply, shapeCast_self,
    Cert.MatmulPlain.matmul_zero_apply, bias_apply]
  rw [show FloatOps.ofBits (F := Ideal) FTy.f32 0x00000000#32 = (0 : EReal) from Ideal.ofBits_zero_f32]
  rfl

end Cert.KernelIdeal.Body

end
-- ==== Proof.KArr0.lean ====
/-
  The array the first kernel leaves, as one function of the arrays it is launched on.

  The grid has 25 points; point `t` reads rows `4000·t … 4000·t + 3999` of the aggregate and of the features, the
  whole weights and biases, and writes those rows of the output. Row `y` of its block is row `4000·t + y` of the
  arrays, and the convolution's value at a row depends on that row only, so what point `t` writes back is block `t`
  of the convolution taken over the whole arrays. The 25 blocks tile the 100000 rows (row `r` lies in block
  `r / 4000`), so the output array ends holding that convolution, with the rectifier after it.
-/
import proofs.«129996_j88424786690458_1_alg».proof.Proof.Gen.KernelIdeal.Frame
import proofs.«129996_j88424786690458_1_alg».proof.Proof.KBody
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arr0

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-blocked inputs and the output are at block `(t, 0)`, the weights and
    biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- One stored entry against the convolution over the whole arrays: if the block's row `y 0` of the two row-blocked
    inputs is row `i 0` of the arrays, the other inputs are the whole weights, and the columns agree, the stored entry
    is the convolution's. -/
theorem entry_eq (A H : Cert.Gin.Mat 100000 64) (Wa : Cert.Gin.Mat 64 128) (ba : Cert.Gin.Row 128)
    (Wb : Cert.Gin.Mat 128 128) (bb : Cert.Gin.Row 128)
    (x0 x1 : Vec Ideal S4000x64 .f32) (x2 : Vec Ideal S64x128 .f32) (x3 : Vec Ideal S128 .f32)
    (x4 : Vec Ideal S128x128 .f32) (x5 : Vec Ideal S128 .f32) (y : S4000x128.Idx) (i : S100000x128.Idx)
    (h0 : ∀ l : Fin 64, x0 (ix2 (y 0) l) = A (ix2 (i 0) l)) (h1 : ∀ l : Fin 64, x1 (ix2 (y 0) l) = H (ix2 (i 0) l))
    (h2 : x2 = Wa) (h3 : x3 = ba) (h4 : x4 = Wb) (h5 : x5 = bb) (hj : i 1 = y 1) :
    k0_pay1 (F := Ideal) x0 x1 x2 x3 x4 x5 y = Cert.Gin.conv Cert.Gin.relu A H Wa ba Wb bb i := by
  obtain ⟨r, j, rfl⟩ : ∃ (r : Fin 4000) (j : Fin 128), y = ix2 r j := ⟨y 0, y 1, eq_ix2 y⟩
  obtain ⟨p, q, rfl⟩ : ∃ (p : Fin 100000) (q : Fin 128), i = ix2 p q := ⟨i 0, i 1, eq_ix2 i⟩
  obtain rfl : q = j := hj
  subst h2 h3 h4 h5
  rw [Cert.KernelIdeal.Body.pay0_apply, Cert.Gin.conv_apply]
  unfold Cert.Gin.convAt
  refine congrArg Cert.Gin.relu ?_
  have e0 : Cert.Gin.rowOf x0 r = Cert.Gin.rowOf A p := funext fun l => h0 l
  have e1 : Cert.Gin.rowOf x1 r = Cert.Gin.rowOf H p := funext fun l => h1 l
  rw [e0, e1]

section
variable (V : (c : Dev nD) → (b : Ref sig .tc) → Buf (Elt Ideal) ((c : Thread nD τ).loc b))

/-- The convolution over the arrays the region is entered with. -/
abbrev G (c : Dev nD) : Cert.Gin.Mat 100000 128 :=
  Cert.Gin.conv Cert.Gin.relu (V c main_v13) (V c main_arg0) (V c main_arg2) (V c main_arg3) (V c main_arg4) (V c main_arg5)

/-- WHAT POINT `t` WRITES BACK is block `t` of that convolution. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S4000x64) hz2, View.ld_unit_zero (S := S64x128) hz2, View.ld_unit_zero (S := S128x128) hz2,
    View.ld_unit_zero (S := S128) hz1]
  obtain ⟨e00, e01, e10, e11, e20, e21, e30, e40, e41, e50, e60, e61⟩ := idx_facts t
  funext y
  show k0_pay1 (F := Ideal) (iblk0 V c 0 t) (iblk0 V c 1 t) (iblk0 V c 2 t) (iblk0 V c 3 t) (iblk0 V c 4 t) (iblk0 V c 5 t) y
    = G V c (((cfg0.win 6).blk t).view.emb y)
  refine entry_eq (V c main_v13) (V c main_arg0) (V c main_arg2) (V c main_arg3) (V c main_arg4) (V c main_arg5)
    (iblk0 V c 0 t) (iblk0 V c 1 t) (iblk0 V c 2 t) (iblk0 V c 3 t) (iblk0 V c 4 t) (iblk0 V c 5 t) y
    (((cfg0.win 6).blk t).view.emb y) ?_ ?_ ?_ ?_ ?_ ?_ ?_
  · intro l
    show V c main_v13 (((cfg0.win 0).blk t).view.emb (ix2 (y 0) l)) = V c main_v13 (ix2 ((((cfg0.win 6).blk t).view.emb y) 0) l)
    refine congrArg (V c main_v13) ?_
    funext a; apply Fin.ext
    match a with
    | ⟨0, _⟩ => show win0_0.index t (0 : Fin 2) * 4000 + 1 * (y 0).val = win0_6.index t (0 : Fin 2) * 4000 + 1 * (y 0).val; rw [e00, e60]
    | ⟨1, _⟩ => show win0_0.index t (1 : Fin 2) * 64 + 1 * l.val = l.val; rw [e01]; omega
  · intro l
    show V c main_arg0 (((cfg0.win 1).blk t).view.emb (ix2 (y 0) l)) = V c main_arg0 (ix2 ((((cfg0.win 6).blk t).view.emb y) 0) l)
    refine congrArg (V c main_arg0) ?_
    funext a; apply Fin.ext
    match a with
    | ⟨0, _⟩ => show win0_1.index t (0 : Fin 2) * 4000 + 1 * (y 0).val = win0_6.index t (0 : Fin 2) * 4000 + 1 * (y 0).val; rw [e10, e60]
    | ⟨1, _⟩ => show win0_1.index t (1 : Fin 2) * 64 + 1 * l.val = l.val; rw [e11]; omega
  · funext z
    show V c main_arg2 (((cfg0.win 2).blk t).view.emb z) = V c main_arg2 z
    refine congrArg (V c main_arg2) ?_
    funext a; apply Fin.ext
    match a with
    | ⟨0, _⟩ => show win0_2.index t (0 : Fin 2) * 64 + 1 * (z 0).val = (z 0).val; rw [e20]; omega
    | ⟨1, _⟩ => show win0_2.index t (1 : Fin 2) * 128 + 1 * (z 1).val = (z 1).val; rw [e21]; omega
  · funext z
    show V c main_arg3 (((cfg0.win 3).blk t).view.emb z) = V c main_arg3 z
    refine congrArg (V c main_arg3) ?_
    funext a; apply Fin.ext
    match a with
    | ⟨0, _⟩ => show win0_3.index t (0 : Fin 1) * 128 + 1 * (z 0).val = (z 0).val; rw [e30]; omega
  · funext z
    show V c main_arg4 (((cfg0.win 4).blk t).view.emb z) = V c main_arg4 z
    refine congrArg (V c main_arg4) ?_
    funext a; apply Fin.ext
    match a with
    | ⟨0, _⟩ => show win0_4.index t (0 : Fin 2) * 128 + 1 * (z 0).val = (z 0).val; rw [e40]; omega
    | ⟨1, _⟩ => show win0_4.index t (1 : Fin 2) * 128 + 1 * (z 1).val = (z 1).val; rw [e41]; omega
  · funext z
    show V c main_arg5 (((cfg0.win 5).blk t).view.emb z) = V c main_arg5 z
    refine congrArg (V c main_arg5) ?_
    funext a; apply Fin.ext
    match a with
    | ⟨0, _⟩ => show win0_5.index t (0 : Fin 1) * 128 + 1 * (z 0).val = (z 0).val; rw [e50]; omega
  · apply Fin.ext
    show win0_6.index t (1 : Fin 2) * 128 + 1 * (y 1).val = (y 1).val
    rw [e61]; omega

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v14).slice (win0_6.rect t)).set ↔ _
  rw [View.set_slice_whole, Rect.mem_set_unit]
  exact Iff.rfl

/-- Every index of the array lies in some point's block: row `r` in block `r / 4000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, e60, e61⟩ := idx_facts ⟨(i 0).val / 4000, ht⟩
  refine ⟨⟨(i 0).val / 4000, ht⟩, flush0_6 _, ?_⟩
  rw [mem_blk]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, ht⟩ (1 : Fin 2) * 128 ≤ (i 1).val ∧ (i 1).val < win0_6.index ⟨(i 0).val / 4000, ht⟩ (1 : Fin 2) * 128 + 128
    rw [e61]; omega

/-- THE ARRAY the first kernel leaves: the rectified convolution of the arrays it was entered with. -/
theorem final (c : Dev nD) : (dat0 V c).arrAt 6 cfg0.N = G V c :=
  (dat0 V c).arrAt_eq_of_cover 6 (G V c) (fun t _ => flushed_eq V c t) cover

end

end Cert.KernelIdeal.Arr0

end
-- ==== Proof.KArr1.lean ====
/-
  The array the second kernel leaves, as one function of the arrays it is launched on.

  As for the first kernel: 25 points, point `t` reading rows `4000·t … 4000·t + 3999` of the aggregate and of the
  features (128 columns now) and the whole weights, and writing those rows of the 64-column output. What point `t`
  writes back is block `t` of the convolution over the whole arrays, with no rectifier after it, and the 25 blocks
  tile the 100000 rows, so the result array ends holding that convolution.
-/
import proofs.«129996_j88424786690458_1_alg».proof.Proof.Gen.KernelIdeal.Frame
import proofs.«129996_j88424786690458_1_alg».proof.Proof.KBody
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arr1

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-blocked inputs and the output are at block `(t, 0)`, the weights and
    biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- One stored entry against the convolution over the whole arrays: if the block's row `y 0` of the two row-blocked
    inputs is row `i 0` of the arrays, the other inputs are the whole weights, and the columns agree, the stored entry
    is the convolution's. -/
theorem entry_eq (A H : Cert.Gin.Mat 100000 128) (Wa : Cert.Gin.Mat 128 128) (ba : Cert.Gin.Row 128)
    (Wb : Cert.Gin.Mat 128 64) (bb : Cert.Gin.Row 64)
    (x0 x1 : Vec Ideal S4000x128 .f32) (x2 : Vec Ideal S128x128 .f32) (x3 : Vec Ideal S128 .f32)
    (x4 : Vec Ideal S128x64 .f32) (x5 : Vec Ideal S64 .f32) (y : S4000x64.Idx) (i : S100000x64.Idx)
    (h0 : ∀ l : Fin 128, x0 (ix2 (y 0) l) = A (ix2 (i 0) l)) (h1 : ∀ l : Fin 128, x1 (ix2 (y 0) l) = H (ix2 (i 0) l))
    (h2 : x2 = Wa) (h3 : x3 = ba) (h4 : x4 = Wb) (h5 : x5 = bb) (hj : i 1 = y 1) :
    k1_pay1 (F := Ideal) x0 x1 x2 x3 x4 x5 y = Cert.Gin.conv id A H Wa ba Wb bb i := by
  obtain ⟨r, j, rfl⟩ : ∃ (r : Fin 4000) (j : Fin 64), y = ix2 r j := ⟨y 0, y 1, eq_ix2 y⟩
  obtain ⟨p, q, rfl⟩ : ∃ (p : Fin 100000) (q : Fin 64), i = ix2 p q := ⟨i 0, i 1, eq_ix2 i⟩
  obtain rfl : q = j := hj
  subst h2 h3 h4 h5
  rw [Cert.KernelIdeal.Body.pay1_apply, Cert.Gin.conv_apply]
  unfold Cert.Gin.convAt
  show _ = Cert.Gin.mlpRow (Cert.Gin.rowOf A p) (Cert.Gin.rowOf H p) x2 x3 x4 x5 q
  have e0 : Cert.Gin.rowOf x0 r = Cert.Gin.rowOf A p := funext fun l => h0 l
  have e1 : Cert.Gin.rowOf x1 r = Cert.Gin.rowOf H p := funext fun l => h1 l
  rw [e0, e1]

section
variable (V : (c : Dev nD) → (b : Ref sig .tc) → Buf (Elt Ideal) ((c : Thread nD τ).loc b))

/-- The convolution over the arrays the region is entered with. -/
abbrev G (c : Dev nD) : Cert.Gin.Mat 100000 64 :=
  Cert.Gin.conv id (V c main_v24) (V c main_v14) (V c main_arg6) (V c main_arg7) (V c main_arg8) (V c main_arg9)

/-- WHAT POINT `t` WRITES BACK is block `t` of that convolution. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S128x128) hz2, View.ld_unit_zero (S := S128x64) hz2,
    View.ld_unit_zero (S := S128) hz1, View.ld_unit_zero (S := S64) hz1]
  obtain ⟨e00, e01, e10, e11, e20, e21, e30, e40, e41, e50, e60, e61⟩ := idx_facts t
  funext y
  show k1_pay1 (F := Ideal) (iblk1 V c 0 t) (iblk1 V c 1 t) (iblk1 V c 2 t) (iblk1 V c 3 t) (iblk1 V c 4 t) (iblk1 V c 5 t) y
    = G V c (((cfg1.win 6).blk t).view.emb y)
  refine entry_eq (V c main_v24) (V c main_v14) (V c main_arg6) (V c main_arg7) (V c main_arg8) (V c main_arg9)
    (iblk1 V c 0 t) (iblk1 V c 1 t) (iblk1 V c 2 t) (iblk1 V c 3 t) (iblk1 V c 4 t) (iblk1 V c 5 t) y
    (((cfg1.win 6).blk t).view.emb y) ?_ ?_ ?_ ?_ ?_ ?_ ?_
  · intro l
    show V c main_v24 (((cfg1.win 0).blk t).view.emb (ix2 (y 0) l)) = V c main_v24 (ix2 ((((cfg1.win 6).blk t).view.emb y) 0) l)
    refine congrArg (V c main_v24) ?_
    funext a; apply Fin.ext
    match a with
    | ⟨0, _⟩ => show win1_0.index t (0 : Fin 2) * 4000 + 1 * (y 0).val = win1_6.index t (0 : Fin 2) * 4000 + 1 * (y 0).val; rw [e00, e60]
    | ⟨1, _⟩ => show win1_0.index t (1 : Fin 2) * 128 + 1 * l.val = l.val; rw [e01]; omega
  · intro l
    show V c main_v14 (((cfg1.win 1).blk t).view.emb (ix2 (y 0) l)) = V c main_v14 (ix2 ((((cfg1.win 6).blk t).view.emb y) 0) l)
    refine congrArg (V c main_v14) ?_
    funext a; apply Fin.ext
    match a with
    | ⟨0, _⟩ => show win1_1.index t (0 : Fin 2) * 4000 + 1 * (y 0).val = win1_6.index t (0 : Fin 2) * 4000 + 1 * (y 0).val; rw [e10, e60]
    | ⟨1, _⟩ => show win1_1.index t (1 : Fin 2) * 128 + 1 * l.val = l.val; rw [e11]; omega
  · funext z
    show V c main_arg6 (((cfg1.win 2).blk t).view.emb z) = V c main_arg6 z
    refine congrArg (V c main_arg6) ?_
    funext a; apply Fin.ext
    match a with
    | ⟨0, _⟩ => show win1_2.index t (0 : Fin 2) * 128 + 1 * (z 0).val = (z 0).val; rw [e20]; omega
    | ⟨1, _⟩ => show win1_2.index t (1 : Fin 2) * 128 + 1 * (z 1).val = (z 1).val; rw [e21]; omega
  · funext z
    show V c main_arg7 (((cfg1.win 3).blk t).view.emb z) = V c main_arg7 z
    refine congrArg (V c main_arg7) ?_
    funext a; apply Fin.ext
    match a with
    | ⟨0, _⟩ => show win1_3.index t (0 : Fin 1) * 128 + 1 * (z 0).val = (z 0).val; rw [e30]; omega
  · funext z
    show V c main_arg8 (((cfg1.win 4).blk t).view.emb z) = V c main_arg8 z
    refine congrArg (V c main_arg8) ?_
    funext a; apply Fin.ext
    match a with
    | ⟨0, _⟩ => show win1_4.index t (0 : Fin 2) * 128 + 1 * (z 0).val = (z 0).val; rw [e40]; omega
    | ⟨1, _⟩ => show win1_4.index t (1 : Fin 2) * 64 + 1 * (z 1).val = (z 1).val; rw [e41]; omega
  · funext z
    show V c main_arg9 (((cfg1.win 5).blk t).view.emb z) = V c main_arg9 z
    refine congrArg (V c main_arg9) ?_
    funext a; apply Fin.ext
    match a with
    | ⟨0, _⟩ => show win1_5.index t (0 : Fin 1) * 64 + 1 * (z 0).val = (z 0).val; rw [e50]; omega
  · apply Fin.ext
    show win1_6.index t (1 : Fin 2) * 64 + 1 * (y 1).val = (y 1).val
    rw [e61]; omega

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v25).slice (win1_6.rect t)).set ↔ _
  rw [View.set_slice_whole, Rect.mem_set_unit]
  exact Iff.rfl

/-- Every index of the array lies in some point's block: row `r` in block `r / 4000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, -, -, -, -, -, -, -, -, e60, e61⟩ := idx_facts ⟨(i 0).val / 4000, ht⟩
  refine ⟨⟨(i 0).val / 4000, ht⟩, flush1_6 _, ?_⟩
  rw [mem_blk]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, ht⟩ (1 : Fin 2) * 64 ≤ (i 1).val ∧ (i 1).val < win1_6.index ⟨(i 0).val / 4000, ht⟩ (1 : Fin 2) * 64 + 64
    rw [e61]; omega

/-- THE ARRAY the second kernel leaves: the convolution of the arrays it was entered with. -/
theorem final (c : Dev nD) : (dat1 V c).arrAt 6 cfg1.N = G V c :=
  (dat1 V c).arrAt_eq_of_cover 6 (G V c) (fun t _ => flushed_eq V c t) cover

end

end Cert.KernelIdeal.Arr1

end
-- ==== Proof.KValue.lean ====
/-
  The kernel's program computes the two-convolution network.

  The first kernel is launched on the neighbour sum of the features and the features, and leaves the rectified
  convolution of the two (`h1`); the host then forms the neighbour sum of `h1`, and the second kernel, launched on it
  and on `h1`, leaves their convolution without a final rectifier in the result array. That is `Cert.Gin.net` with
  the host's two neighbour sums.
-/
import proofs.«129996_j88424786690458_1_alg».proof.Proof.KRun
import proofs.«129996_j88424786690458_1_alg».proof.Proof.KHost
import proofs.«129996_j88424786690458_1_alg».proof.Proof.KArr0
import proofs.«129996_j88424786690458_1_alg».proof.Proof.KArr1

noncomputable section

open Idealize.ShloMosaic Idealize.ShloMosaic.TcCoe Idealize.SL.Sem

namespace Cert.KernelIdeal.Net

open Cert.KernelIdeal Cert.KernelIdeal.Gen Cert.KernelIdeal.HostSide

variable (m : (ℓ : Loc nD τ sig) → Buf (Elt Ideal) ℓ) (ρ : Dev nD → PrngReg)

/-- The array the first kernel leaves. -/
theorem first (c : Dev nD) :
    W2 m ρ c (Proc.devRef .tc main_v14)
      = Cert.Gin.conv Cert.Gin.relu (agg64 (F := Ideal) (m ((c : Thread nD τ).loc main_arg1)) (m ((c : Thread nD τ).loc main_arg0)))
          (m ((c : Thread nD τ).loc main_arg0)) (m ((c : Thread nD τ).loc main_arg2)) (m ((c : Thread nD τ).loc main_arg3))
          (m ((c : Thread nD τ).loc main_arg4)) (m ((c : Thread nD τ).loc main_arg5)) := by
  refine ((W2_arr m ρ c 6).trans (Cert.KernelIdeal.Arr0.final (V1 m ρ) c)).trans ?_
  show Cert.Gin.conv Cert.Gin.relu (V1 m ρ c main_v13) (V1 m ρ c main_arg0) (V1 m ρ c main_arg2) (V1 m ρ c main_arg3)
    (V1 m ρ c main_arg4) (V1 m ρ c main_arg5) = _
  rw [V1_v13, V1_arg0, V1_arg2, V1_arg3, V1_arg4, V1_arg5]

/-- The result array after the run: the network of the arguments. -/
theorem result (c : Dev nD) :
    W4 m ρ c (Proc.devRef .tc main_v25)
      = Cert.Gin.net (agg64 (F := Ideal) (m ((c : Thread nD τ).loc main_arg1))) (agg128 (F := Ideal) (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine ((W4_arr m ρ c 6).trans (Cert.KernelIdeal.Arr1.final (V3 m ρ) c)).trans ?_
  show Cert.Gin.conv id (V3 m ρ c main_v24) (V3 m ρ c main_v14) (V3 m ρ c main_arg6) (V3 m ρ c main_arg7)
    (V3 m ρ c main_arg8) (V3 m ρ c main_arg9) = _
  rw [V3_v24, V3_v14, V3_arg6, V3_arg7, V3_arg8, V3_arg9, first]
  rfl

/-- The run of the kernel's program, its result named: the network of the arguments; the arguments unchanged. -/
theorem run : θ_run defs (onTc (τ := τ) (main (F := Ideal))) ⟨m, fun _ => 0, ρ⟩ (fun r => ∀ c : Dev nD,
      r.2.mem ((c.tc : Thread nD τ).loc main_v25)
        = Cert.Gin.net (agg64 (F := Ideal) (m ((c : Thread nD τ).loc main_arg1))) (agg128 (F := Ideal) (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Cert.KernelIdeal.RunNamed.run (F := Ideal) m ρ)

end Cert.KernelIdeal.Net

end
-- ==== Proof.RefValue.lean ====
/-
  The reference's result, stage by stage, is the two-convolution network of `Cert.Gin`.

  The reference forms the neighbour sum of the features (`%13`), adds the features, multiplies by the first weight
  matrix over all 100000 rows at once, adds the bias, rectifies, multiplies by the second matrix, adds its bias and
  rectifies again (`%24`); then the same on `%24` with the second convolution's weights and no final rectifier
  (`%44`). Read at row `r`, column `j`, each product is the sum over the contracted coordinate of row `r` of its
  left operand against column `j` of the weights, each bias repeated down the rows reads its entry `j`, and the
  rectifier is the maximum with the zero constant: entry by entry the convolution's row function.
-/
import proofs.«129996_j88424786690458_1_alg».proof.Proof.Gen.ReferenceIdeal.Read
import proofs.«129996_j88424786690458_1_alg».proof.Proof.Spec
import proofs.«129996_j88424786690458_1_alg».proof.Proof.LibMatmulPlain
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read

/-! ## The index maps of the products and of the biases, at an index given by coordinates -/

theorem lidx15 (r : Fin 100000) (j : Fin 128) (k : Fin 64) : lidx_main_v15 (ix2 r j) k = ix2 r k :=
  funext fun a => by match a with | ⟨0, _⟩ => rfl | ⟨1, _⟩ => rfl
theorem ridx15 (r : Fin 100000) (j : Fin 128) (k : Fin 64) : ridx_main_v15 (ix2 r j) k = ix2 k j :=
  funext fun a => by match a with | ⟨0, _⟩ => rfl | ⟨1, _⟩ => rfl
theorem lidx20 (r : Fin 100000) (j : Fin 128) (k : Fin 128) : lidx_main_v20 (ix2 r j) k = ix2 r k :=
  funext fun a => by match a with | ⟨0, _⟩ => rfl | ⟨1, _⟩ => rfl
theorem ridx20 (r : Fin 100000) (j : Fin 128) (k : Fin 128) : ridx_main_v20 (ix2 r j) k = ix2 k j :=
  funext fun a => by match a with | ⟨0, _⟩ => rfl | ⟨1, _⟩ => rfl
theorem lidx36 (r : Fin 100000) (j : Fin 128) (k : Fin 128) : lidx_main_v36 (ix2 r j) k = ix2 r k :=
  funext fun a => by match a with | ⟨0, _⟩ => rfl | ⟨1, _⟩ => rfl
theorem ridx36 (r : Fin 100000) (j : Fin 128) (k : Fin 128) : ridx_main_v36 (ix2 r j) k = ix2 k j :=
  funext fun a => by match a with | ⟨0, _⟩ => rfl | ⟨1, _⟩ => rfl
theorem lidx41 (r : Fin 100000) (j : Fin 64) (k : Fin 128) : lidx_main_v41 (ix2 r j) k = ix2 r k :=
  funext fun a => by match a with | ⟨0, _⟩ => rfl | ⟨1, _⟩ => rfl
theorem ridx41 (r : Fin 100000) (j : Fin 64) (k : Fin 128) : ridx_main_v41 (ix2 r j) k = ix2 k j :=
  funext fun a => by match a with | ⟨0, _⟩ => rfl | ⟨1, _⟩ => rfl
theorem bidx17 (r : Fin 100000) (j : Fin 128) : idx_main_v16 (idx_main_v17 (ix2 r j)) = ix1 j :=
  funext fun a => by match a with | ⟨0, _⟩ => rfl
theorem bidx22 (r : Fin 100000) (j : Fin 128) : idx_main_v21 (idx_main_v22 (ix2 r j)) = ix1 j :=
  funext fun a => by match a with | ⟨0, _⟩ => rfl
theorem bidx38 (r : Fin 100000) (j : Fin 128) : idx_main_v37 (idx_main_v38 (ix2 r j)) = ix1 j :=
  funext fun a => by match a with | ⟨0, _⟩ => rfl
theorem bidx43 (r : Fin 100000) (j : Fin 64) : idx_main_v42 (idx_main_v43 (ix2 r j)) = ix1 j :=
  funext fun a => by match a with | ⟨0, _⟩ => rfl

/-- The zero constant is the extended real 0. -/
theorem zero_f32 : FloatOps.ofBits (F := Ideal) FTy.f32 0x00000000#32 = (0 : EReal) := Ideal.ofBits_zero_f32

/-- The products' dimension numbers are the plain `[M, K]` by `[K, N]` ones. -/
theorem dotA : dot_S100000x64_S64x128_S100000x128_1_0_0_1_n_n = DotDims.plain 100000 64 128 := rfl
theorem dotB : dot_S100000x128_S128x128_S100000x128_1_0_0_1_n_n = DotDims.plain 100000 128 128 := rfl
theorem dotC : dot_S100000x128_S128x64_S100000x64_1_0_0_1_n_n = DotDims.plain 100000 128 64 := rfl

variable (x3 : (⟨S128, .f32⟩ : BufTy).Contents (Elt Ideal)) (x5 : (⟨S128, .f32⟩ : BufTy).Contents (Elt Ideal))
  (x7 : (⟨S128, .f32⟩ : BufTy).Contents (Elt Ideal)) (x9 : (⟨S64, .f32⟩ : BufTy).Contents (Elt Ideal))

/-! ## The biases repeated down the rows, and the rectifiers' zero arrays, at an entry -/

theorem v17_at (r : Fin 100000) (j : Fin 128) : val_main_v17 (F := Ideal) x3 (ix2 r j) = x3 (ix1 j) :=
  (val_main_v17_apply x3 _).trans ((val_main_v16_apply x3 _).trans (congrArg x3 (bidx17 r j)))
theorem v22_at (r : Fin 100000) (j : Fin 128) : val_main_v22 (F := Ideal) x5 (ix2 r j) = x5 (ix1 j) :=
  (val_main_v22_apply x5 _).trans ((val_main_v21_apply x5 _).trans (congrArg x5 (bidx22 r j)))
theorem v38_at (r : Fin 100000) (j : Fin 128) : val_main_v38 (F := Ideal) x7 (ix2 r j) = x7 (ix1 j) :=
  (val_main_v38_apply x7 _).trans ((val_main_v37_apply x7 _).trans (congrArg x7 (bidx38 r j)))
theorem v43_at (r : Fin 100000) (j : Fin 64) : val_main_v43 (F := Ideal) x9 (ix2 r j) = x9 (ix1 j) :=
  (val_main_v43_apply x9 _).trans ((val_main_v42_apply x9 _).trans (congrArg x9 (bidx43 r j)))
theorem z0_at (i : S100000x128.Idx) : val_main_call0_v0 (F := Ideal) i = (0 : EReal) :=
  (val_main_call0_v0_apply i).trans ((val_main_call0_cst_apply _).trans zero_f32)
theorem z1_at (i : S100000x128.Idx) : val_main_call1_v0 (F := Ideal) i = (0 : EReal) :=
  (val_main_call1_v0_apply i).trans ((val_main_call1_cst_apply _).trans zero_f32)
theorem z2_at (i : S100000x128.Idx) : val_main_call2_v0 (F := Ideal) i = (0 : EReal) :=
  (val_main_call2_v0_apply i).trans ((val_main_call2_cst_apply _).trans zero_f32)

/-! ## The dense part of each convolution, over ANY aggregate array -/

/-- The first convolution's operations after the neighbour sum, applied to an aggregate `A` and the features `H`:
    the rectified convolution. -/
theorem dense1 (A H : FVec Ideal S100000x64 .f32) (Wa : FVec Ideal S64x128 .f32) (Wb : FVec Ideal S128x128 .f32) :
    (maximumf (F := Ideal) (addf (F := Ideal) (Host.dotGeneral (F := Ideal) dot_S100000x128_S128x128_S100000x128_1_0_0_1_n_n none
        (maximumf (F := Ideal) (addf (F := Ideal) (Host.dotGeneral (F := Ideal) dot_S100000x64_S64x128_S100000x128_1_0_0_1_n_n none (addf (F := Ideal) (φ := .f32) A H) Wa) (val_main_v17 (F := Ideal) x3))
          (val_main_call0_v0 (F := Ideal))) Wb) (val_main_v22 (F := Ideal) x5)) (val_main_call1_v0 (F := Ideal)) : FVec Ideal S100000x128 .f32)
      = Cert.Gin.conv Cert.Gin.relu A H Wa x3 Wb x5 := by
  funext i
  obtain ⟨r, j, rfl⟩ : ∃ (r : Fin 100000) (j : Fin 128), i = ix2 r j := ⟨i 0, i 1, eq_ix2 i⟩
  rw [Cert.Gin.conv_apply]
  simp only [dotA, dotB, Host.dotGeneral, maximumf_apply, addf_apply, Cert.MatmulPlain.dotGeneral_apply, v17_at, v22_at, z0_at, z1_at]
  rfl

/-- The second convolution's operations after the neighbour sum: the convolution with no final rectifier. -/
theorem dense2 (A H : FVec Ideal S100000x128 .f32) (Wa : FVec Ideal S128x128 .f32) (Wb : FVec Ideal S128x64 .f32) :
    (addf (F := Ideal) (Host.dotGeneral (F := Ideal) dot_S100000x128_S128x64_S100000x64_1_0_0_1_n_n none
        (maximumf (F := Ideal) (addf (F := Ideal) (Host.dotGeneral (F := Ideal) dot_S100000x128_S128x128_S100000x128_1_0_0_1_n_n none (addf (F := Ideal) (φ := .f32) A H) Wa) (val_main_v38 (F := Ideal) x7))
          (val_main_call2_v0 (F := Ideal))) Wb) (val_main_v43 (F := Ideal) x9) : FVec Ideal S100000x64 .f32)
      = Cert.Gin.conv id A H Wa x7 Wb x9 := by
  funext i
  obtain ⟨r, j, rfl⟩ : ∃ (r : Fin 100000) (j : Fin 64), i = ix2 r j := ⟨i 0, i 1, eq_ix2 i⟩
  rw [Cert.Gin.conv_apply]
  simp only [dotB, dotC, Host.dotGeneral, maximumf_apply, addf_apply, Cert.MatmulPlain.dotGeneral_apply, v38_at, v43_at, z2_at]
  rfl

/-! ## The two convolutions of the reference -/

section
variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x4 : (⟨S128x128, .f32⟩ : BufTy).Contents (Elt Ideal))
  (x6 : (⟨S128x128, .f32⟩ : BufTy).Contents (Elt Ideal)) (x8 : (⟨S128x64, .f32⟩ : BufTy).Contents (Elt Ideal))

/-- `%24` is the rectified convolution of the neighbour sum `%13` and the features. -/
theorem first_conv : val_main_v24 (F := Ideal) x0 x1 x2 x3 x4 x5
    = Cert.Gin.conv Cert.Gin.relu (val_main_v13 (F := Ideal) x0 x1) x0 x2 x3 x4 x5 := by
  unfold val_main_v24 val_main_v23 val_main_v20 val_main_v19 val_main_v18 val_main_v15 val_main_v14
  exact dense1 x3 x5 (val_main_v13 (F := Ideal) x0 x1) x0 x2 x4

/-- `%44` is the convolution of the neighbour sum `%34` of `%24` and `%24`, with no final rectifier. -/
theorem second_conv : val_main_v44 (F := Ideal) x0 x1 x2 x3 x4 x5 x6 x7 x8 x9
    = Cert.Gin.conv id (val_main_v34 (F := Ideal) x0 x1 x2 x3 x4 x5) (val_main_v24 (F := Ideal) x0 x1 x2 x3 x4 x5) x6 x7 x8 x9 := by
  unfold val_main_v44 val_main_v41 val_main_v40 val_main_v39 val_main_v36 val_main_v35
  exact dense2 x7 x9 (val_main_v34 (F := Ideal) x0 x1 x2 x3 x4 x5) (val_main_v24 (F := Ideal) x0 x1 x2 x3 x4 x5) x6 x8

end

end Cert.ReferenceIdeal.RefValue

end
-- ==== Proof.Bridge.lean ====
/-
  The reference's network is the kernel program's network.

  Both programs form each neighbour sum with the same host operations on the edge list and the features (slice a
  row of the edge list, move negative entries up by the node count, gather the rows, scatter-add them from zeros),
  so the reference's two sums are the kernel program's `agg64` and `agg128` as they stand; with its two
  convolutions read as `Cert.Gin.conv`, the reference's result is `Cert.Gin.net` over those sums.
-/
import proofs.«129996_j88424786690458_1_alg».proof.Proof.RefValue
import proofs.«129996_j88424786690458_1_alg».proof.Proof.KHost

noncomputable section

open Idealize.ShloMosaic

namespace Cert.Bridge

open Cert.ReferenceIdeal Cert.ReferenceIdeal.Read

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-- The reference's neighbour sum of the features is the kernel program's: the same operations. -/
theorem agg64_eq : val_main_v13 (F := Ideal) x0 x1 = Cert.KernelIdeal.HostSide.agg64 (F := Ideal) x1 x0 := rfl

/-- Its neighbour sum of the first convolution's result likewise. -/
theorem agg128_eq : val_main_v34 (F := Ideal) x0 x1 x2 x3 x4 x5
    = Cert.KernelIdeal.HostSide.agg128 (F := Ideal) x1 (val_main_v24 (F := Ideal) x0 x1 x2 x3 x4 x5) := rfl

/-- The reference's result is the network over the kernel program's neighbour sums. -/
theorem ref_net : val_main_v44 (F := Ideal) x0 x1 x2 x3 x4 x5 x6 x7 x8 x9
    = Cert.Gin.net (Cert.KernelIdeal.HostSide.agg64 (F := Ideal) x1) (Cert.KernelIdeal.HostSide.agg128 (F := Ideal) x1)
        x0 x2 x3 x4 x5 x6 x7 x8 x9 := by
  rw [Cert.ReferenceIdeal.RefValue.second_conv, agg128_eq, Cert.ReferenceIdeal.RefValue.first_conv, agg64_eq]
  rfl

end Cert.Bridge

end
-- ==== Proof.lean ====
/-
  The certificate of a two-convolution graph-isomorphism network against its plain reference.

  Both programs form, for each convolution, the neighbour sum of the features over the edge list on the host, with
  the same operations. The kernel's program then runs each convolution's dense part (add the features, two affine
  layers with a rectifier between, a rectifier after the first convolution) as a kernel tiled over 25 blocks of 4000
  node rows, rounding to a shorter float format on the way into the matrix unit; the reference runs it as whole-array
  operations. On the extended reals the roundings are the identity, a block's rows depend on the same rows of the
  inputs only, and the blocks tile the rows, so each kernel leaves the convolution of the arrays it was launched on
  (`Proof/KArr0.lean`, `Proof/KArr1.lean`), the kernel's program ends with `Cert.Gin.net` of the arguments
  (`Proof/KValue.lean`), and the reference ends with the same (`Proof/RefValue.lean`, `Proof/Bridge.lean`). No law of
  arithmetic joins the two sides: they are the same sums of the same products, entry by entry, so the precondition is
  never opened. The ideal pass rewrote nothing, so `preserves` has nothing to state.
-/
import proofs.«129996_j88424786690458_1_alg».proof.Defs
import proofs.«129996_j88424786690458_1_alg».proof.Proof.Gen.Kernel
import proofs.«129996_j88424786690458_1_alg».proof.Proof.Gen.Kernel.Skeleton
import proofs.«129996_j88424786690458_1_alg».proof.Proof.Gen.Kernel.Launch
import proofs.«129996_j88424786690458_1_alg».proof.Proof.Gen.Kernel.Points
import proofs.«129996_j88424786690458_1_alg».proof.Proof.Gen.Kernel.Frame
import proofs.«129996_j88424786690458_1_alg».proof.Proof.Gen.KernelIdeal
import proofs.«129996_j88424786690458_1_alg».proof.Proof.Gen.KernelIdeal.Skeleton
import proofs.«129996_j88424786690458_1_alg».proof.Proof.Gen.KernelIdeal.Launch
import proofs.«129996_j88424786690458_1_alg».proof.Proof.Gen.KernelIdeal.Points
import proofs.«129996_j88424786690458_1_alg».proof.Proof.Gen.KernelIdeal.Frame
import proofs.«129996_j88424786690458_1_alg».proof.Proof.Gen.ReferenceIdeal
import proofs.«129996_j88424786690458_1_alg».proof.Proof.Gen.Pre_finite_inputs
import proofs.«129996_j88424786690458_1_alg».proof.Proof.Gen.ReferenceIdeal.Run
import proofs.«129996_j88424786690458_1_alg».proof.Proof.Gen.ReferenceIdeal.Read
import proofs.«129996_j88424786690458_1_alg».proof.Proof.KValue
import proofs.«129996_j88424786690458_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.Bridge.ref_net _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
